-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S2x500000 : Shape := ⟨2, ![2, 500000]⟩
abbrev S256x16 : Shape := ⟨2, ![256, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : IVec S2x500000 32) (main_arg3 : IVec S2x500000 32) (main_arg4 : FVec F S256x16 .f32) (main_arg5 : FVec F S16 .f32) (main_arg6 : FVec F S16x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg4
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg6
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg7 main_v13 main_v16
-- ==== Kernel.lean ====
abbrev S100000x256 : Shape := ⟨2, ![100000, 256]⟩
abbrev S2x3200000 : Shape := ⟨2, ![2, 3200000]⟩
abbrev S2x500000 : Shape := ⟨2, ![2, 500000]⟩
abbrev S256x16 : Shape := ⟨2, ![256, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x256 : Shape := ⟨2, ![2000, 256]⟩
abbrev S2000x16 : Shape := ⟨2, ![2000, 16]⟩
abbrev S3300000x16 : Shape := ⟨2, ![3300000, 16]⟩
abbrev S1x16 : Shape := ⟨2, ![1, 16]⟩
abbrev S100000x64 : Shape := ⟨2, ![100000, 64]⟩
abbrev S2000x64 : Shape := ⟨2, ![2000, 64]⟩
abbrev S3300000x64 : Shape := ⟨2, ![3300000, 64]⟩
abbrev S1x64 : Shape := ⟨2, ![1, 64]⟩
abbrev S2x1000000 : Shape := ⟨2, ![2, 1000000]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩

abbrev nBuf : Space → Nat
  | .hbm => 157
  | .vmem => 10
  | .smem => 0
  | _ => 0

abbrev hbmTy0_0 (i : Nat) : BufTy := match i % 128 with
  | 0 => ⟨S100000x256, .f32⟩
  | 1 => ⟨S2x3200000, .i32⟩
  | 2 => ⟨S2x500000, .i32⟩
  | 3 => ⟨S2x500000, .i32⟩
  | 4 => ⟨S256x16, .f32⟩
  | 5 => ⟨S16, .f32⟩
  | 6 => ⟨S16x64, .f32⟩
  | 7 => ⟨S64, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x16, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000, .i32⟩
  | 72 => ⟨S1x3200000, .i32⟩
  | 73 => ⟨S3200000, .i32⟩
  | 74 => ⟨S3300000, .i32⟩
  | 75 => ⟨S1x3200000, .i32⟩
  | 76 => ⟨S3200000, .i32⟩
  | 77 => ⟨S3300000, .i32⟩
  | 78 => ⟨S_, .f32⟩
  | 79 => ⟨S3300000, .f32⟩
  | 80 => ⟨S_, .f32⟩
  | 81 => ⟨S100000, .f32⟩
  | 82 => ⟨S3300000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S100000x64, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x64, .f32⟩
  | 121 => ⟨S3300000x1, .f32⟩
  | 122 => ⟨S3300000x64, .f32⟩
  | 123 => ⟨S3300000x64, .f32⟩
  | 124 => ⟨S_, .f32⟩
  | 125 => ⟨S100000x64, .f32⟩
  | 126 => ⟨S3300000x1, .i32⟩
  | 127 => ⟨S100000x64, .f32⟩
  | _ => ⟨S100000x256, .f32⟩

abbrev hbmTy0_1 (i : Nat) : BufTy := match i % 128 with
  | 0 => ⟨S1x64, .f32⟩
  | 1 => ⟨S100000x64, .f32⟩
  | 2 => ⟨S100000x64, .f32⟩
  | 3 => ⟨S2x1000000, .i32⟩
  | 4 => ⟨S1x1000000, .i32⟩
  | 5 => ⟨S1000000, .i32⟩
  | 6 => ⟨S1x1000000, .i32⟩
  | 7 => ⟨S1000000, .i32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x64, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x64, .f32⟩
  | 26 => ⟨S1000000x64, .f32⟩
  | 27 => ⟨S_, .f32⟩
  | 28 => ⟨S1000000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x64, .f32⟩
  | .local _ .vmem, ⟨8, _⟩ => ⟨S2000x64, .f32⟩
  | .local _ .vmem, ⟨9, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_20 : Ref sig .tc := ⟨.hbm, 136, rfl⟩
abbrev main_v100 : Ref sig .tc := ⟨.hbm, 137, rfl⟩
abbrev main_v101 : Ref sig .tc := ⟨.hbm, 138, rfl⟩
abbrev main_c_21 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_22 : Ref sig .tc := ⟨.hbm, 145, rfl⟩
abbrev main_v107 : Ref sig .tc := ⟨.hbm, 146, rfl⟩
abbrev main_v108 : Ref sig .tc := ⟨.hbm, 147, rfl⟩
abbrev main_c_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_24 : Ref sig .tc := ⟨.hbm, 155, rfl⟩
abbrev main_v115 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x64_S16x64_0_0 : ∀ a, (![0, 0] : Fin 2 → Nat) a + S16x64.size a ≤ S16x64.size a
  h_S16x64 : 0 < S16x64.numel
  inb_S2000x64_S2000x64_0_0 : ∀ a, (![0, 0] : Fin 2 → Nat) a + S2000x64.size a ≤ S2000x64.size a
  h_S2000x64 : 0 < S2000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S2x500000_S2x500000_S2x1000000_d1 : Shape.Concatenates [S2x500000, S2x500000] S2x1000000 1
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x64_S1000000_d1 : S1000000x64.ReducesTo [1] S1000000
  h_S_ : 0 < S_.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x256_S256x16_S2000x16_1_0_0_1_n_n_wf : DotDims.WF S2000x256 S256x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x64_S2000x64_1_0_0_1_n_n_wf : DotDims.WF S2000x16 S16x64 S2000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  gather_S100000x64_S1000000x1_S1000000x64_1_0_n_n_0_1_164_wf : GatherDims.WF S100000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v78) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S2x500000 : Shape := ⟨2, ![2, 500000]⟩
abbrev S256x16 : Shape := ⟨2, ![256, 16]⟩
abbrev S16 : Shape := ⟨1, ![16]⟩
abbrev S16x64 : Shape := ⟨2, ![16, 64]⟩
abbrev S64 : Shape := ⟨1, ![64]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩
abbrev S2x1000000 : Shape := ⟨2, ![2, 1000000]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩

abbrev nBuf : Space → Nat
  | .hbm => 157
  | .vmem => 0
  | .smem => 0
  | _ => 0

abbrev hbmTy0_0 (i : Nat) : BufTy := match i % 128 with
  | 0 => ⟨S100000x256, .f32⟩
  | 1 => ⟨S2x3200000, .i32⟩
  | 2 => ⟨S2x500000, .i32⟩
  | 3 => ⟨S2x500000, .i32⟩
  | 4 => ⟨S256x16, .f32⟩
  | 5 => ⟨S16, .f32⟩
  | 6 => ⟨S16x64, .f32⟩
  | 7 => ⟨S64, .f32⟩
  | 8 => ⟨S100000x16, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x64, .f32⟩
  | 72 => ⟨S100000, .i32⟩
  | 73 => ⟨S1x3200000, .i32⟩
  | 74 => ⟨S3200000, .i32⟩
  | 75 => ⟨S3300000, .i32⟩
  | 76 => ⟨S1x3200000, .i32⟩
  | 77 => ⟨S3200000, .i32⟩
  | 78 => ⟨S3300000, .i32⟩
  | 79 => ⟨S_, .f32⟩
  | 80 => ⟨S3300000, .f32⟩
  | 81 => ⟨S_, .f32⟩
  | 82 => ⟨S100000, .f32⟩
  | 83 => ⟨S3300000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000, .f32⟩
  | 111 => ⟨S3300000, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x64, .f32⟩
  | 121 => ⟨S3300000x1, .f32⟩
  | 122 => ⟨S3300000x64, .f32⟩
  | 123 => ⟨S3300000x64, .f32⟩
  | 124 => ⟨S_, .f32⟩
  | 125 => ⟨S100000x64, .f32⟩
  | 126 => ⟨S3300000x1, .i32⟩
  | 127 => ⟨S100000x64, .f32⟩
  | _ => ⟨S100000x256, .f32⟩

abbrev hbmTy0_1 (i : Nat) : BufTy := match i % 128 with
  | 0 => ⟨S1x64, .f32⟩
  | 1 => ⟨S100000x64, .f32⟩
  | 2 => ⟨S100000x64, .f32⟩
  | 3 => ⟨S2x1000000, .i32⟩
  | 4 => ⟨S1x1000000, .i32⟩
  | 5 => ⟨S1000000, .i32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000x64, .f32⟩
  | 15 => ⟨S1x1000000, .i32⟩
  | 16 => ⟨S1000000, .i32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x64, .f32⟩
  | 26 => ⟨S1000000x64, .f32⟩
  | 27 => ⟨S_, .f32⟩
  | 28 => ⟨S1000000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_20 : Ref sig .tc := ⟨.hbm, 134, rfl⟩
abbrev main_v98 : Ref sig .tc := ⟨.hbm, 135, rfl⟩
abbrev main_v99 : Ref sig .tc := ⟨.hbm, 136, rfl⟩
abbrev main_c_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_22 : Ref sig .tc := ⟨.hbm, 145, rfl⟩
abbrev main_v107 : Ref sig .tc := ⟨.hbm, 146, rfl⟩
abbrev main_v108 : Ref sig .tc := ⟨.hbm, 147, rfl⟩
abbrev main_c_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_24 : Ref sig .tc := ⟨.hbm, 155, rfl⟩
abbrev main_v115 : Ref sig .tc := ⟨.hbm, 156, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S2x500000_S2x500000_S2x1000000_d1 : Shape.Concatenates [S2x500000, S2x500000] S2x1000000 1
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reducesTo_S1000000x64_S1000000_d1 : S1000000x64.ReducesTo [1] S1000000
  h_S_ : 0 < S_.numel
  dot_S100000x256_S256x16_S100000x16_1_0_0_1_n_n_wf : DotDims.WF S100000x256 S256x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  gather_S100000x64_S1000000x1_S1000000x64_1_0_n_n_0_1_164_wf : GatherDims.WF S100000x64 S1000000x1 S1000000x64 [1] [0] [] [0] [] 1 ![1, 64]

variable [Facts₀]

def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

class Facts : Prop extends Facts₀ where

variable [Facts]
-- ==== Proof.Blocks0.lean ====
/- The first layer's product, block by block, is the whole product.
   Each of the 50 grid points multiplies a block of 2000 rows of the [100000, 256] operand by the whole [256, 16]
   operand into a zero accumulator and writes the [2000, 16] result back as rows 2000 t … 2000 t + 1999 of the
   [100000, 16] array. At exact arithmetic the narrowing of both operands is the identity and the product into zero is
   the plain sum over the 256 contracted positions, so what point t writes back is block t of ONE whole-array function:
   entry (r, q) ↦ ∑ k, x (r, k) · w (k, q), which is the reference's `dot_general` read at an index. The 50 blocks tile
   the array (row r lies in block r / 2000), so the array ends holding that function. -/
import proofs.«418501_j1614907703893_3_alg».proof.Proof.Gen.KernelIdeal.Frame
import proofs.«418501_j1614907703893_3_alg».proof.Proof.RefRead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Product0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The block product at an index -/

/-- Row `j 0`, column `k` of the left block. -/
abbrev lix (j : S2000x16.Idx) (k : Fin 256) : S2000x256.Idx := fun a => match a with
  | ⟨0, _⟩ => ⟨(j 0).val, (j 0).isLt⟩
  | ⟨1, _⟩ => ⟨k.val, k.isLt⟩
/-- Row `k`, column `j 1` of the right operand. -/
abbrev rix (j : S2000x16.Idx) (k : Fin 256) : S256x16.Idx := fun a => match a with
  | ⟨0, _⟩ => ⟨k.val, k.isLt⟩
  | ⟨1, _⟩ => ⟨(j 1).val, (j 1).isLt⟩

theorem lhs_0 (i : S2000x16.Idx) (q : dot_S2000x256_S256x16_S2000x16_1_0_0_1_n_n.contr.Idx) :
    (dot_S2000x256_S256x16_S2000x16_1_0_0_1_n_n.lhsIdx i q 0).val = (i 0).val := by
  unfold DotDims.lhsIdx
  rw [dif_neg (show ¬(0 : Fin S2000x256.rank) ∈ dot_S2000x256_S256x16_S2000x16_1_0_0_1_n_n.lhsBatch by decide), dif_pos (show (0 : Fin S2000x256.rank) ∈ dot_S2000x256_S256x16_S2000x16_1_0_0_1_n_n.lhsNonContracting by decide)]
  rfl
theorem lhs_1 (i : S2000x16.Idx) (q : dot_S2000x256_S256x16_S2000x16_1_0_0_1_n_n.contr.Idx) :
    (dot_S2000x256_S256x16_S2000x16_1_0_0_1_n_n.lhsIdx i q 1).val = (q ⟨0, by decide⟩).val :=
  dot_S2000x256_S256x16_S2000x16_1_0_0_1_n_n.lhsIdx_val_of_single rfl i q
theorem rhs_0 (i : S2000x16.Idx) (q : dot_S2000x256_S256x16_S2000x16_1_0_0_1_n_n.contr.Idx) :
    (dot_S2000x256_S256x16_S2000x16_1_0_0_1_n_n.rhsIdx i q 0).val = (q ⟨0, by decide⟩).val :=
  dot_S2000x256_S256x16_S2000x16_1_0_0_1_n_n.rhsIdx_val_of_single rfl i q
theorem rhs_1 (i : S2000x16.Idx) (q : dot_S2000x256_S256x16_S2000x16_1_0_0_1_n_n.contr.Idx) :
    (dot_S2000x256_S256x16_S2000x16_1_0_0_1_n_n.rhsIdx i q 1).val = (i 1).val := by
  unfold DotDims.rhsIdx
  rw [dif_neg (show ¬(1 : Fin S256x16.rank) ∈ dot_S2000x256_S256x16_S2000x16_1_0_0_1_n_n.rhsBatch by decide), dif_pos (show (1 : Fin S256x16.rank) ∈ dot_S2000x256_S256x16_S2000x16_1_0_0_1_n_n.rhsNonContracting by decide)]
  rfl

/-- The body's product of two loaded blocks, at an index: the sum over the contracted position of the products
    (the narrowing of the operands is the identity at exact arithmetic, and the accumulator is zero). -/
theorem pay_apply (x0 : Vec Ideal S2000x256 .f32) (x1 : Vec Ideal S256x16 .f32) (j : S2000x16.Idx) :
    k0_pay1 (F := Ideal) x0 x1 j = ∑ k : Fin 256, x0 (lix j k) * x1 (rix j k) := by
  unfold k0_pay1
  simp only [matmul]
  rw [Ideal.matmul_constant_zero_apply, ← Equiv.sum_comp (ValueIdx.contrEquiv1 dot_S2000x256_S256x16_S2000x16_1_0_0_1_n_n 256 rfl rfl).symm]
  refine Finset.sum_congr rfl fun k _ => ?_
  have hk := ValueIdx.contrEquiv1_symm_val dot_S2000x256_S256x16_S2000x16_1_0_0_1_n_n 256 rfl rfl k
  have el : dot_S2000x256_S256x16_S2000x16_1_0_0_1_n_n.lhsIdx j ((ValueIdx.contrEquiv1 dot_S2000x256_S256x16_S2000x16_1_0_0_1_n_n 256 rfl rfl).symm k) = lix j k := funext fun a => Fin.ext (by
    match a with
    | ⟨0, _⟩ => exact lhs_0 _ _
    | ⟨1, _⟩ => exact (lhs_1 _ _).trans hk)
  have er : dot_S2000x256_S256x16_S2000x16_1_0_0_1_n_n.rhsIdx j ((ValueIdx.contrEquiv1 dot_S2000x256_S256x16_S2000x16_1_0_0_1_n_n 256 rfl rfl).symm k) = rix j k := funext fun a => Fin.ext (by
    match a with
    | ⟨0, _⟩ => exact (rhs_0 _ _).trans hk
    | ⟨1, _⟩ => exact rhs_1 _ _)
  rw [el, er]
  rfl

/-! ## The windows' blocks as parts of their arrays -/

/-- The printed index maps over the grid: the row-blocked windows sit at block row `t`, the whole right operand at
    block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `2000 t … 2000 t + 1999` of its array. -/
theorem xblk_apply (c : Dev nD) (t : Fin cfg0.N) (y : S2000x256.Idx) (i : S100000x256.Idx)
    (h0 : (i 0).val = 2000 * t.val + (y 0).val) (h1 : (i 1).val = (y 1).val) :
    (iblk0 V c 0 t : Vec Ideal S2000x256 .f32) y = (V c main_arg0 : S100000x256.Idx → EReal) i := by
  obtain ⟨e0, e1, -, -, -, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-- The right window's block at every point is its whole array. -/
theorem wblk_apply (c : Dev nD) (t : Fin cfg0.N) (y : S256x16.Idx) (i : S256x16.Idx)
    (h0 : (i 0).val = (y 0).val) (h1 : (i 1).val = (y 1).val) :
    (iblk0 V c 1 t : Vec Ideal S256x16 .f32) y = (V c main_arg4 : S256x16.Idx → EReal) i := by
  obtain ⟨-, -, e2, e3, -, -⟩ := idx_facts t
  unfold iblk0
  rw [View.read_apply]
  show V c main_arg4 _ = V c main_arg4 _
  refine congrArg _ ?_
  funext a
  apply Fin.ext
  match a with
  | ⟨0, _⟩ => show win0_1.index t (0 : Fin 2) * 256 + 1 * (y 0).val = (i 0).val; rw [e2, h0]; omega
  | ⟨1, _⟩ => show win0_1.index t (1 : Fin 2) * 16 + 1 * (y 1).val = (i 1).val; rw [e3, h1]; omega

/-! ## From the blocks to the array -/

/-- The whole-array function the output's blocks are blocks of: the reference's product of the two arrays as the
    region finds them. -/
abbrev whole (c : Dev nD) : Buf (Elt Ideal) ((cfg0.win 2).arr.view.loc (c.tc : Thread nD τ)) :=
  Cert.ReferenceIdeal.Read.val_main_v0 (F := Ideal) (V c main_arg0) (V c main_arg4)

/-- WHAT POINT `t` WRITES BACK is block `t` of the whole product: entry (p, q) of the block product and entry
    (2000 t + p, q) of the whole product are the same sum, term by term. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x16) hz]
  obtain ⟨-, -, -, -, e4, e5⟩ := idx_facts t
  funext j
  show k0_pay1 (F := Ideal) (iblk0 V c 0 t) (iblk0 V c 1 t) j
      = Cert.ReferenceIdeal.Read.val_main_v0 (F := Ideal) (V c main_arg0) (V c main_arg4) (((cfg0.win 2).blk t).view.emb j)
  refine (pay_apply (iblk0 V c 0 t) (iblk0 V c 1 t) j).trans ?_
  refine ((Cert.ReferenceIdeal.Read.val_main_v0_apply (V c main_arg0) (V c main_arg4) _).trans ?_).symm
  refine Finset.sum_congr rfl fun k _ => ?_
  refine congrArg₂ (· * ·) (xblk_apply V c t (lix j k) _ ?_ ?_).symm (wblk_apply V c t (rix j k) _ ?_ ?_).symm
  · show win0_2.index t (0 : Fin 2) * 2000 + 1 * (j 0).val = 2000 * t.val + (j 0).val
    rw [e4]; omega
  · rfl
  · rfl
  · show win0_2.index t (1 : Fin 2) * 16 + 1 * (j 1).val = (j 1).val
    rw [e5]; omega

/-- An index of the array is in point `t`'s block iff each coordinate is in the block's range on its axis. -/
theorem mem_blk (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- Every index of the array lies in the block of the point its row falls to: row `r` in block `r / 2000`. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  have ht : (i 0).val / 2000 < cfg0.N := by rw [hN]; omega
  obtain ⟨-, -, -, -, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 16 ≤ (i 1).val ∧ (i 1).val < win0_2.index ⟨(i 0).val / 2000, ht⟩ (1 : Fin 2) * 16 + 16
    rw [e5]; omega

/-- THE ARRAY after the region: the whole product of the two arrays the region found. -/
theorem array_eq (c : Dev nD) :
    (dat0 V c).arrAt 2 cfg0.N = Cert.ReferenceIdeal.Read.val_main_v0 (F := Ideal) (V c main_arg0) (V c main_arg4) :=
  (dat0 V c).arrAt_eq_of_cover 2 (whole V c) (fun t _ => flushed_eq V c t) (cover)

end Cert.KernelIdeal.Product0

end
-- ==== Proof.Blocks1.lean ====
/- The second layer's product, block by block, is the whole product.
   Each of the 50 grid points multiplies a block of 2000 rows of the [100000, 16] operand (the first layer's
   activations) by the whole [16, 64] operand into a zero accumulator and writes the [2000, 64] result back as rows
   2000 t … 2000 t + 1999 of the [100000, 64] array. At exact arithmetic the narrowing of both operands is the
   identity (and the body's cast of the left block to its own shape changes nothing), so what point t writes back is
   block t of ONE whole-array function: entry (r, q) ↦ ∑ k, z (r, k) · w (k, q) over the 16 contracted positions —
   the host's `dot_general` of the two arrays read at an index. The 50 blocks tile the array, so it ends holding that
   function. -/
import proofs.«418501_j1614907703893_3_alg».proof.Proof.Gen.KernelIdeal.Frame
import proofs.«418501_j1614907703893_3_alg».proof.Proof.RefRead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Product1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The block product at an index -/

/-- Row `j 0`, column `k` of the left block. -/
abbrev lix (j : S2000x64.Idx) (k : Fin 16) : S2000x16.Idx := fun a => match a with
  | ⟨0, _⟩ => ⟨(j 0).val, (j 0).isLt⟩
  | ⟨1, _⟩ => ⟨k.val, k.isLt⟩
/-- Row `k`, column `j 1` of the right operand. -/
abbrev rix (j : S2000x64.Idx) (k : Fin 16) : S16x64.Idx := fun a => match a with
  | ⟨0, _⟩ => ⟨k.val, k.isLt⟩
  | ⟨1, _⟩ => ⟨(j 1).val, (j 1).isLt⟩

theorem lhs_0 (i : S2000x64.Idx) (q : dot_S2000x16_S16x64_S2000x64_1_0_0_1_n_n.contr.Idx) :
    (dot_S2000x16_S16x64_S2000x64_1_0_0_1_n_n.lhsIdx i q 0).val = (i 0).val := by
  unfold DotDims.lhsIdx
  rw [dif_neg (show ¬(0 : Fin S2000x16.rank) ∈ dot_S2000x16_S16x64_S2000x64_1_0_0_1_n_n.lhsBatch by decide), dif_pos (show (0 : Fin S2000x16.rank) ∈ dot_S2000x16_S16x64_S2000x64_1_0_0_1_n_n.lhsNonContracting by decide)]
  rfl
theorem lhs_1 (i : S2000x64.Idx) (q : dot_S2000x16_S16x64_S2000x64_1_0_0_1_n_n.contr.Idx) :
    (dot_S2000x16_S16x64_S2000x64_1_0_0_1_n_n.lhsIdx i q 1).val = (q ⟨0, by decide⟩).val :=
  dot_S2000x16_S16x64_S2000x64_1_0_0_1_n_n.lhsIdx_val_of_single rfl i q
theorem rhs_0 (i : S2000x64.Idx) (q : dot_S2000x16_S16x64_S2000x64_1_0_0_1_n_n.contr.Idx) :
    (dot_S2000x16_S16x64_S2000x64_1_0_0_1_n_n.rhsIdx i q 0).val = (q ⟨0, by decide⟩).val :=
  dot_S2000x16_S16x64_S2000x64_1_0_0_1_n_n.rhsIdx_val_of_single rfl i q
theorem rhs_1 (i : S2000x64.Idx) (q : dot_S2000x16_S16x64_S2000x64_1_0_0_1_n_n.contr.Idx) :
    (dot_S2000x16_S16x64_S2000x64_1_0_0_1_n_n.rhsIdx i q 1).val = (i 1).val := by
  unfold DotDims.rhsIdx
  rw [dif_neg (show ¬(1 : Fin S16x64.rank) ∈ dot_S2000x16_S16x64_S2000x64_1_0_0_1_n_n.rhsBatch by decide), dif_pos (show (1 : Fin S16x64.rank) ∈ dot_S2000x16_S16x64_S2000x64_1_0_0_1_n_n.rhsNonContracting by decide)]
  rfl

/-- The body's product of two loaded blocks, at an index: the sum over the contracted position of the products
    (the cast of the left block to its own shape and the narrowing of the operands are the identity at exact
    arithmetic, and the accumulator is zero). -/
theorem pay_apply (x0 : Vec Ideal S2000x16 .f32) (x1 : Vec Ideal S16x64 .f32) (j : S2000x64.Idx) :
    k1_pay1 (F := Ideal) x0 x1 j = ∑ k : Fin 16, x0 (lix j k) * x1 (rix j k) := by
  unfold k1_pay1
  simp only [matmul, shapeCast_self]
  rw [Ideal.matmul_constant_zero_apply, ← Equiv.sum_comp (ValueIdx.contrEquiv1 dot_S2000x16_S16x64_S2000x64_1_0_0_1_n_n 16 rfl rfl).symm]
  refine Finset.sum_congr rfl fun k _ => ?_
  have hk := ValueIdx.contrEquiv1_symm_val dot_S2000x16_S16x64_S2000x64_1_0_0_1_n_n 16 rfl rfl k
  have el : dot_S2000x16_S16x64_S2000x64_1_0_0_1_n_n.lhsIdx j ((ValueIdx.contrEquiv1 dot_S2000x16_S16x64_S2000x64_1_0_0_1_n_n 16 rfl rfl).symm k) = lix j k := funext fun a => Fin.ext (by
    match a with
    | ⟨0, _⟩ => exact lhs_0 _ _
    | ⟨1, _⟩ => exact (lhs_1 _ _).trans hk)
  have er : dot_S2000x16_S16x64_S2000x64_1_0_0_1_n_n.rhsIdx j ((ValueIdx.contrEquiv1 dot_S2000x16_S16x64_S2000x64_1_0_0_1_n_n 16 rfl rfl).symm k) = rix j k := funext fun a => Fin.ext (by
    match a with
    | ⟨0, _⟩ => exact (rhs_0 _ _).trans hk
    | ⟨1, _⟩ => exact rhs_1 _ _)
  rw [el, er]
  rfl

/-! ## The whole product at an index -/

/-- The host's product of a [100000, 16] array by a [16, 64] array. -/
abbrev prod (y0 : FVec Ideal Cert.ReferenceIdeal.S100000x16 .f32) (x6 : FVec Ideal Cert.ReferenceIdeal.S16x64 .f32) :
    FVec Ideal Cert.ReferenceIdeal.S100000x64 .f32 :=
  Host.dotGeneral Cert.ReferenceIdeal.dot_S100000x16_S16x64_S100000x64_1_0_0_1_n_n none y0 x6

/-- At exact arithmetic it is, entry by entry, the sum over the 16 contracted positions of the products. -/
theorem prod_apply (y0 : FVec Ideal Cert.ReferenceIdeal.S100000x16 .f32) (x6 : FVec Ideal Cert.ReferenceIdeal.S16x64 .f32)
    (i : Cert.ReferenceIdeal.S100000x64.Idx) :
    prod y0 x6 i = ∑ k : Fin 16, y0 (Cert.ReferenceIdeal.Read.lidx_main_v48 i k) * x6 (Cert.ReferenceIdeal.Read.ridx_main_v48 i k) := by
  simp only [prod, Host.dotGeneral]
  rw [Ideal.dotGeneral_apply, ← Equiv.sum_comp (ValueIdx.contrEquiv1 Cert.ReferenceIdeal.dot_S100000x16_S16x64_S100000x64_1_0_0_1_n_n 16 rfl rfl).symm]
  refine Finset.sum_congr rfl fun k _ => ?_
  have hk := ValueIdx.contrEquiv1_symm_val Cert.ReferenceIdeal.dot_S100000x16_S16x64_S100000x64_1_0_0_1_n_n 16 rfl rfl k
  have el : Cert.ReferenceIdeal.dot_S100000x16_S16x64_S100000x64_1_0_0_1_n_n.lhsIdx i ((ValueIdx.contrEquiv1 Cert.ReferenceIdeal.dot_S100000x16_S16x64_S100000x64_1_0_0_1_n_n 16 rfl rfl).symm k) = Cert.ReferenceIdeal.Read.lidx_main_v48 i k := funext fun a => Fin.ext (by
    match a with
    | ⟨0, _⟩ => exact Cert.ReferenceIdeal.Read.lhs_main_v48_0 _ _
    | ⟨1, _⟩ => exact (Cert.ReferenceIdeal.Read.lhs_main_v48_1 _ _).trans hk)
  have er : Cert.ReferenceIdeal.dot_S100000x16_S16x64_S100000x64_1_0_0_1_n_n.rhsIdx i ((ValueIdx.contrEquiv1 Cert.ReferenceIdeal.dot_S100000x16_S16x64_S100000x64_1_0_0_1_n_n 16 rfl rfl).symm k) = Cert.ReferenceIdeal.Read.ridx_main_v48 i k := funext fun a => Fin.ext (by
    match a with
    | ⟨0, _⟩ => exact (Cert.ReferenceIdeal.Read.rhs_main_v48_0 _ _).trans hk
    | ⟨1, _⟩ => exact Cert.ReferenceIdeal.Read.rhs_main_v48_1 _ _)
  rw [el, er]

/-! ## The windows' blocks as parts of their arrays -/

/-- The printed index maps over the grid: the row-blocked windows sit at block row `t`, the whole right operand at
    block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` is rows `2000 t … 2000 t + 1999` of its array. -/
theorem xblk_apply (c : Dev nD) (t : Fin cfg1.N) (y : S2000x16.Idx) (i : S100000x16.Idx)
    (h0 : (i 0).val = 2000 * t.val + (y 0).val) (h1 : (i 1).val = (y 1).val) :
    (iblk1 V c 0 t : Vec Ideal S2000x16 .f32) y = (V c main_v47 : S100000x16.Idx → EReal) i := by
  obtain ⟨e0, e1, -, -, -, -⟩ := idx_facts t
  unfold iblk1
  rw [View.read_apply]
  show V c main_v47 _ = V c main_v47 _
  refine congrArg _ ?_
  funext a
  apply Fin.ext
  match a with
  | ⟨0, _⟩ => show win1_0.index t (0 : Fin 2) * 2000 + 1 * (y 0).val = (i 0).val; rw [e0, h0]; omega
  | ⟨1, _⟩ => show win1_0.index t (1 : Fin 2) * 16 + 1 * (y 1).val = (i 1).val; rw [e1, h1]; omega

/-- The right window's block at every point is its whole array. -/
theorem wblk_apply (c : Dev nD) (t : Fin cfg1.N) (y : S16x64.Idx) (i : S16x64.Idx)
    (h0 : (i 0).val = (y 0).val) (h1 : (i 1).val = (y 1).val) :
    (iblk1 V c 1 t : Vec Ideal S16x64 .f32) y = (V c main_arg6 : S16x64.Idx → EReal) i := by
  obtain ⟨-, -, e2, e3, -, -⟩ := idx_facts t
  unfold iblk1
  rw [View.read_apply]
  show V c main_arg6 _ = V c main_arg6 _
  refine congrArg _ ?_
  funext a
  apply Fin.ext
  match a with
  | ⟨0, _⟩ => show win1_1.index t (0 : Fin 2) * 16 + 1 * (y 0).val = (i 0).val; rw [e2, h0]; omega
  | ⟨1, _⟩ => show win1_1.index t (1 : Fin 2) * 64 + 1 * (y 1).val = (i 1).val; rw [e3, h1]; omega

/-! ## From the blocks to the array -/

/-- The whole-array function the output's blocks are blocks of: the host's product of the two arrays as the region
    finds them. -/
abbrev whole (c : Dev nD) : Buf (Elt Ideal) ((cfg1.win 2).arr.view.loc (c.tc : Thread nD τ)) :=
  prod (V c main_v47) (V c main_arg6)

/-- WHAT POINT `t` WRITES BACK is block `t` of the whole product: entry (p, q) of the block product and entry
    (2000 t + p, q) of the whole product are the same sum, term by term. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S2000x16) hz, View.ld_unit_zero (S := S16x64) hz]
  obtain ⟨-, -, -, -, e4, e5⟩ := idx_facts t
  funext j
  show k1_pay1 (F := Ideal) (iblk1 V c 0 t) (iblk1 V c 1 t) j
      = prod (V c main_v47) (V c main_arg6) (((cfg1.win 2).blk t).view.emb j)
  refine (pay_apply (iblk1 V c 0 t) (iblk1 V c 1 t) j).trans ?_
  refine ((prod_apply (V c main_v47) (V c main_arg6) _).trans ?_).symm
  refine Finset.sum_congr rfl fun k _ => ?_
  refine congrArg₂ (· * ·) (xblk_apply V c t (lix j k) _ ?_ ?_).symm (wblk_apply V c t (rix j k) _ ?_ ?_).symm
  · show win1_2.index t (0 : Fin 2) * 2000 + 1 * (j 0).val = 2000 * t.val + (j 0).val
    rw [e4]; omega
  · rfl
  · rfl
  · show win1_2.index t (1 : Fin 2) * 64 + 1 * (j 1).val = (j 1).val
    rw [e5]; omega

/-- An index of the array is in point `t`'s block iff each coordinate is in the block's range on its axis. -/
theorem mem_blk (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v78).slice (win1_2.rect t)).set ↔ _
  rw [View.set_slice_whole, Rect.mem_set_unit]
  exact Iff.rfl

/-- Every index of the array lies in the block of the point its row falls to: row `r` in block `r / 2000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  have ht : (i 0).val / 2000 < cfg1.N := by rw [hN]; omega
  obtain ⟨-, -, -, -, e4, e5⟩ := idx_facts ⟨(i 0).val / 2000, ht⟩
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 64 ≤ (i 1).val ∧ (i 1).val < win1_2.index ⟨(i 0).val / 2000, ht⟩ (1 : Fin 2) * 64 + 64
    rw [e5]; omega

/-- THE ARRAY after the region: the whole product of the two arrays the region found. -/
theorem array_eq (c : Dev nD) :
    (dat1 V c).arrAt 2 cfg1.N = prod (V c main_v47) (V c main_arg6) :=
  (dat1 V c).arrAt_eq_of_cover 2 (whole V c) (fun t _ => flushed_eq V c t) (cover)

end Cert.KernelIdeal.Product1

end
-- ==== Proof.Stage0.lean ====
/- What the program's buffers hold when the first product is entered, as functions of the arguments.
   Before the first pallas_call the host computes, from the edge index alone: the source and destination index vectors
   (each row of the edge index followed by the self-loops 0 … 99999), the in-degree of every node by a scatter-add of
   ones, its inverse square root where positive, and the per-edge weight: the product of that value gathered at the
   source and at the destination (a negative index first moved up by the node count). The reference computes the same
   three vectors by the same operations; its stages are named one operation at a time, and each of these buffers holds
   the corresponding stage of the edge index as launched. No operation of this stretch writes an argument. -/
import proofs.«418501_j1614907703893_3_alg».proof.Proof.Gen.KernelIdeal.Frame
import proofs.«418501_j1614907703893_3_alg».proof.Proof.RefRead
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The arguments at the first product's entry: as launched -/

set_option maxHeartbeats 4000000 in
theorem W3_arg0 (c : Dev nD) : W3 m ρ c (Proc.devRef .tc main_arg0) = m ((c : Thread nD τ).loc main_arg0) := by
  dsimp only [W3, W2, W1, hostOps0, hostOps0_1, hostOps0_2]
  after_results_simp

set_option maxHeartbeats 4000000 in
theorem W3_arg1 (c : Dev nD) : W3 m ρ c (Proc.devRef .tc main_arg1) = m ((c : Thread nD τ).loc main_arg1) := by
  dsimp only [W3, W2, W1, hostOps0, hostOps0_1, hostOps0_2]
  after_results_simp

set_option maxHeartbeats 4000000 in
theorem W3_arg2 (c : Dev nD) : W3 m ρ c (Proc.devRef .tc main_arg2) = m ((c : Thread nD τ).loc main_arg2) := by
  dsimp only [W3, W2, W1, hostOps0, hostOps0_1, hostOps0_2]
  after_results_simp

set_option maxHeartbeats 4000000 in
theorem W3_arg3 (c : Dev nD) : W3 m ρ c (Proc.devRef .tc main_arg3) = m ((c : Thread nD τ).loc main_arg3) := by
  dsimp only [W3, W2, W1, hostOps0, hostOps0_1, hostOps0_2]
  after_results_simp

set_option maxHeartbeats 4000000 in
theorem W3_arg4 (c : Dev nD) : W3 m ρ c (Proc.devRef .tc main_arg4) = m ((c : Thread nD τ).loc main_arg4) := by
  dsimp only [W3, W2, W1, hostOps0, hostOps0_1, hostOps0_2]
  after_results_simp

set_option maxHeartbeats 4000000 in
theorem W3_arg5 (c : Dev nD) : W3 m ρ c (Proc.devRef .tc main_arg5) = m ((c : Thread nD τ).loc main_arg5) := by
  dsimp only [W3, W2, W1, hostOps0, hostOps0_1, hostOps0_2]
  after_results_simp

set_option maxHeartbeats 4000000 in
theorem W3_arg6 (c : Dev nD) : W3 m ρ c (Proc.devRef .tc main_arg6) = m ((c : Thread nD τ).loc main_arg6) := by
  dsimp only [W3, W2, W1, hostOps0, hostOps0_1, hostOps0_2]
  after_results_simp

set_option maxHeartbeats 4000000 in
theorem W3_arg7 (c : Dev nD) : W3 m ρ c (Proc.devRef .tc main_arg7) = m ((c : Thread nD τ).loc main_arg7) := by
  dsimp only [W3, W2, W1, hostOps0, hostOps0_1, hostOps0_2]
  after_results_simp

/-! ## The index vectors and the edge weight -/

set_option maxHeartbeats 4000000 in
/-- The source indices: the edge index's first row, then the self-loops. -/
theorem W3_src (c : Dev nD) :
    W3 m ρ c (Proc.devRef .tc main_v3) = Cert.ReferenceIdeal.Read.val_main_v4 (F := F) (m ((c : Thread nD τ).loc main_arg1)) := by
  dsimp only [W3, W2, W1, hostOps0, hostOps0_1, hostOps0_2]
  after_results_simp
  rfl

set_option maxHeartbeats 4000000 in
/-- The destination indices: the edge index's second row, then the self-loops. -/
theorem W3_dst (c : Dev nD) :
    W3 m ρ c (Proc.devRef .tc main_v6) = Cert.ReferenceIdeal.Read.val_main_v7 (F := F) (m ((c : Thread nD τ).loc main_arg1)) := by
  dsimp only [W3, W2, W1, hostOps0, hostOps0_1, hostOps0_2]
  after_results_simp
  rfl

set_option maxHeartbeats 16000000 in
/-- The per-edge weight: the inverse square root of the in-degree (zero where the degree is not positive) at the
    source times the same at the destination. -/
theorem W3_norm (c : Dev nD) :
    W3 m ρ c (Proc.devRef .tc main_v29) = Cert.ReferenceIdeal.Read.val_main_v30 (F := F) (m ((c : Thread nD τ).loc main_arg1)) := by
  dsimp only [W3, W2, W1, hostOps0, hostOps0_1, hostOps0_2]
  after_results_simp
  rfl

end Cert.KernelIdeal.Stages

end
-- ==== Proof.Stage1.lean ====
/- From the first product to the second: the first layer's activations and the second layer's index vectors and edge
   weight, as functions of the arguments.
   The first pallas_call writes only its own result array, so the index vectors, the edge weight and the arguments are
   behind it what they were before it. Between the two products the host gathers the first product's rows at the source
   indices, scales each by its edge weight, scatter-adds them at the destination indices, adds the bias and takes the
   maximum with zero: the first layer's activations. It then computes the index vectors and the edge weight again from
   the edge index. The reference applies the same operations to ITS first product; so once the first product's array is
   the reference's first product (the hypothesis `h`: it is proved where the float family is the exact one), each of
   these buffers holds the reference's corresponding stage of the arguments as launched. -/
import proofs.«418501_j1614907703893_3_alg».proof.Proof.Stage0

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Behind the first product: everything but its result array is as before it -/

theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

theorem W4_src (c : Dev nD) :
    W4 m ρ c (Proc.devRef .tc main_v3) = Cert.ReferenceIdeal.Read.val_main_v4 (F := F) (m ((c : Thread nD τ).loc main_arg1)) :=
  (W4_of_ne m ρ c main_v3 (by decide)).trans (W3_src m ρ c)
theorem W4_dst (c : Dev nD) :
    W4 m ρ c (Proc.devRef .tc main_v6) = Cert.ReferenceIdeal.Read.val_main_v7 (F := F) (m ((c : Thread nD τ).loc main_arg1)) :=
  (W4_of_ne m ρ c main_v6 (by decide)).trans (W3_dst m ρ c)
theorem W4_norm (c : Dev nD) :
    W4 m ρ c (Proc.devRef .tc main_v29) = Cert.ReferenceIdeal.Read.val_main_v30 (F := F) (m ((c : Thread nD τ).loc main_arg1)) :=
  (W4_of_ne m ρ c main_v29 (by decide)).trans (W3_norm m ρ c)

/-! ## At the second product's entry

    The index vectors are joined from pieces computed in this same stretch (a row of the edge index, the self-loops);
    the edge index is first named where those pieces read it — behind the first product — and read back as launched
    at the end. -/

set_option maxHeartbeats 8000000 in
theorem W9_arg2 (c : Dev nD) : W9 m ρ c (Proc.devRef .tc main_arg2) = m ((c : Thread nD τ).loc main_arg2) := by
  dsimp only [W9, W8, W7, W6, W5, hostOps1, hostOps1_1, hostOps1_2, hostOps1_3, hostOps1_4]
  after_results_simp
  exact W4_arg2 m ρ c

set_option maxHeartbeats 8000000 in
theorem W9_arg3 (c : Dev nD) : W9 m ρ c (Proc.devRef .tc main_arg3) = m ((c : Thread nD τ).loc main_arg3) := by
  dsimp only [W9, W8, W7, W6, W5, hostOps1, hostOps1_1, hostOps1_2, hostOps1_3, hostOps1_4]
  after_results_simp
  exact W4_arg3 m ρ c

set_option maxHeartbeats 8000000 in
theorem W9_arg6 (c : Dev nD) : W9 m ρ c (Proc.devRef .tc main_arg6) = m ((c : Thread nD τ).loc main_arg6) := by
  dsimp only [W9, W8, W7, W6, W5, hostOps1, hostOps1_1, hostOps1_2, hostOps1_3, hostOps1_4]
  after_results_simp
  exact W4_arg6 m ρ c

set_option maxHeartbeats 8000000 in
theorem W9_arg7 (c : Dev nD) : W9 m ρ c (Proc.devRef .tc main_arg7) = m ((c : Thread nD τ).loc main_arg7) := by
  dsimp only [W9, W8, W7, W6, W5, hostOps1, hostOps1_1, hostOps1_2, hostOps1_3, hostOps1_4]
  after_results_simp
  exact W4_arg7 m ρ c

set_option maxHeartbeats 8000000 in
/-- The second layer's source indices. -/
theorem W9_src (c : Dev nD) :
    W9 m ρ c (Proc.devRef .tc main_v51) = Cert.ReferenceIdeal.Read.val_main_v52 (F := F) (m ((c : Thread nD τ).loc main_arg1)) := by
  rw [← W4_arg1 m ρ c]
  dsimp only [W9, W8, W7, W6, W5, hostOps1, hostOps1_1, hostOps1_2, hostOps1_3, hostOps1_4]
  after_results_simp
  rfl

set_option maxHeartbeats 8000000 in
/-- The second layer's destination indices. -/
theorem W9_dst (c : Dev nD) :
    W9 m ρ c (Proc.devRef .tc main_v54) = Cert.ReferenceIdeal.Read.val_main_v55 (F := F) (m ((c : Thread nD τ).loc main_arg1)) := by
  rw [← W4_arg1 m ρ c]
  dsimp only [W9, W8, W7, W6, W5, hostOps1, hostOps1_1, hostOps1_2, hostOps1_3, hostOps1_4]
  after_results_simp
  rfl

set_option maxHeartbeats 32000000 in
/-- The second layer's per-edge weight. -/
theorem W9_norm (c : Dev nD) :
    W9 m ρ c (Proc.devRef .tc main_v77) = Cert.ReferenceIdeal.Read.val_main_v78 (F := F) (m ((c : Thread nD τ).loc main_arg1)) := by
  rw [← W4_arg1 m ρ c]
  dsimp only [W9, W8, W7, W6, W5, hostOps1, hostOps1_1, hostOps1_2, hostOps1_3, hostOps1_4]
  after_results_simp
  rfl

set_option maxHeartbeats 32000000 in
/-- The first layer's activations: the aggregate of the first product's rows over the edges, plus the bias, clipped
    below at zero — of the reference's first product when the first product's array is that. -/
theorem W9_act (c : Dev nD)
    (h : W4 m ρ c (Proc.devRef .tc main_v30) = Cert.ReferenceIdeal.Read.val_main_v0 (F := F) (m ((c : Thread nD τ).loc main_arg0)) (m ((c : Thread nD τ).loc main_arg4))) :
    W9 m ρ c (Proc.devRef .tc main_v47) = Cert.ReferenceIdeal.Read.val_main_v47 (F := F) (m ((c : Thread nD τ).loc main_arg0)) (m ((c : Thread nD τ).loc main_arg1)) (m ((c : Thread nD τ).loc main_arg4)) (m ((c : Thread nD τ).loc main_arg5)) := by
  dsimp only [W9, W8, W7, W6, W5, hostOps1, hostOps1_1, hostOps1_2, hostOps1_3, hostOps1_4]
  after_results_simp
  rw [h, W4_src, W4_dst, W4_norm, W4_arg5]
  rfl

end Cert.KernelIdeal.Stages

end
-- ==== Proof.Stage2.lean ====
/- From the second product to the result, as a function of the arguments.
   The second pallas_call writes only its own result array, so the second layer's index vectors and edge weight and the
   arguments are behind it what they were before it. After it the host gathers the second product's rows at the source
   indices, scales each by its edge weight, scatter-adds them at the destination indices and adds the bias: the node
   embeddings. It joins the positive and negative test edges, gathers the embeddings at both ends of every test edge
   and sums the products over the 64 features: one score per test edge. The reference applies the same operations to
   ITS second product; so once the second product's array is the reference's second product (the hypothesis `h`), the
   result buffer holds the reference's last stage of the arguments as launched. -/
import proofs.«418501_j1614907703893_3_alg».proof.Proof.Stage1

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Behind the second product: everything but its result array is as before it -/

theorem W10_arg2 (c : Dev nD) : W10 m ρ c (Proc.devRef .tc main_arg2) = m ((c : Thread nD τ).loc main_arg2) :=
  (W10_of_ne m ρ c main_arg2 (by decide)).trans (W9_arg2 m ρ c)
theorem W10_arg3 (c : Dev nD) : W10 m ρ c (Proc.devRef .tc main_arg3) = m ((c : Thread nD τ).loc main_arg3) :=
  (W10_of_ne m ρ c main_arg3 (by decide)).trans (W9_arg3 m ρ c)
theorem W10_arg7 (c : Dev nD) : W10 m ρ c (Proc.devRef .tc main_arg7) = m ((c : Thread nD τ).loc main_arg7) :=
  (W10_of_ne m ρ c main_arg7 (by decide)).trans (W9_arg7 m ρ c)

theorem W10_src (c : Dev nD) :
    W10 m ρ c (Proc.devRef .tc main_v51) = Cert.ReferenceIdeal.Read.val_main_v52 (F := F) (m ((c : Thread nD τ).loc main_arg1)) :=
  (W10_of_ne m ρ c main_v51 (by decide)).trans (W9_src m ρ c)
theorem W10_dst (c : Dev nD) :
    W10 m ρ c (Proc.devRef .tc main_v54) = Cert.ReferenceIdeal.Read.val_main_v55 (F := F) (m ((c : Thread nD τ).loc main_arg1)) :=
  (W10_of_ne m ρ c main_v54 (by decide)).trans (W9_dst m ρ c)
theorem W10_norm (c : Dev nD) :
    W10 m ρ c (Proc.devRef .tc main_v77) = Cert.ReferenceIdeal.Read.val_main_v78 (F := F) (m ((c : Thread nD τ).loc main_arg1)) :=
  (W10_of_ne m ρ c main_v77 (by decide)).trans (W9_norm m ρ c)

/-! ## The result -/

set_option maxHeartbeats 64000000 in
/-- The scores of the test edges: of the reference's second product when the second product's array is that. -/
theorem W11_out (c : Dev nD)
    (h : W10 m ρ c (Proc.devRef .tc main_v78) = Cert.ReferenceIdeal.Read.val_main_v48 (F := F) (m ((c : Thread nD τ).loc main_arg0)) (m ((c : Thread nD τ).loc main_arg1)) (m ((c : Thread nD τ).loc main_arg4)) (m ((c : Thread nD τ).loc main_arg5)) (m ((c : Thread nD τ).loc main_arg6))) :
    W11 m ρ c (Proc.devRef .tc main_v115) = Cert.ReferenceIdeal.Read.val_main_v115 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [← W10_arg2 m ρ c, ← W10_arg3 m ρ c]
  dsimp only [W11, hostOps2]
  after_results_simp
  rw [h, W10_src, W10_dst, W10_norm, W10_arg7]
  rfl

end Cert.KernelIdeal.Stages

end
-- ==== Proof.Layers.lean ====
/- The two products and the result at exact arithmetic.
   At exact arithmetic each pallas_call leaves in its result array the host's product of the two arrays it found
   (the blocks assemble to the whole product). The first found the arguments x and W1 as launched, so its array is the
   reference's first product; hence the activations are the reference's, the second call found them and W2, its array
   is the reference's second product, and the result buffer ends holding the reference's last stage of the
   arguments as launched. -/
import proofs.«418501_j1614907703893_3_alg».proof.Proof.Blocks0
import proofs.«418501_j1614907703893_3_alg».proof.Proof.Blocks1
import proofs.«418501_j1614907703893_3_alg».proof.Proof.Stage2

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Behind the first pallas_call its result array holds the reference's first product of the arguments. -/
theorem W4_prod (c : Dev nD) :
    W4 m ρ c (Proc.devRef .tc main_v30) = Cert.ReferenceIdeal.Read.val_main_v0 (F := Ideal) (m ((c : Thread nD τ).loc main_arg0)) (m ((c : Thread nD τ).loc main_arg4)) := by
  refine (W4_arr m ρ c 2).trans ((Cert.KernelIdeal.Product0.array_eq (V3 m ρ) c).trans ?_)
  show Cert.ReferenceIdeal.Read.val_main_v0 (F := Ideal) (W3 m ρ c (Proc.devRef .tc main_arg0)) (W3 m ρ c (Proc.devRef .tc main_arg4)) = _
  rw [W3_arg0, W3_arg4]

/-- Behind the second pallas_call its result array holds the reference's second product of the arguments. -/
theorem W10_prod (c : Dev nD) :
    W10 m ρ c (Proc.devRef .tc main_v78) = Cert.ReferenceIdeal.Read.val_main_v48 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W10_arr m ρ c 2).trans ((Cert.KernelIdeal.Product1.array_eq (V9 m ρ) c).trans ?_)
  show Cert.KernelIdeal.Product1.prod (W9 m ρ c (Proc.devRef .tc main_v47)) (W9 m ρ c (Proc.devRef .tc main_arg6)) = _
  rw [W9_act m ρ c (W4_prod m ρ c), W9_arg6]
  rfl

/-- The result buffer after the program: the reference's last stage of the arguments as launched. -/
theorem result (c : Dev nD) :
    W11 m ρ c (Proc.devRef .tc main_v115) = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  W11_out m ρ c (W10_prod m ρ c)

end Cert.KernelIdeal.Stages

end
-- ==== Proof.lean ====
/- A two-layer graph convolution followed by a dot-product edge decoder, against its plain reference, over the
   extended reals.

   Both programs compute, from node features x [100000, 256], a train edge index [2, 3200000], two test edge indices
   [2, 500000] and the weights W1 [256, 16], b1 [16], W2 [16, 64], b2 [64]:
     z1 = max(0, A (x · W1) + b1),   z2 = A (z1 · W2) + b2,   score(e) = ∑_f z2[src e, f] · z2[dst e, f],
   where A is the normalised adjacency with self-loops: (A h)[n] = ∑ over edges e into n of w(e) · h[src e], the edge
   weight w(e) the product of deg^(-1/2) (zero where the degree is not positive) at the edge's two ends, computed by
   gather, multiply and scatter-add on the host. The two programs differ ONLY in the two matrix products: the reference
   takes each as one `dot_general`; the kernel takes each in a pallas_call over 50 blocks of 2000 rows, narrowing both
   operands to bf16 and accumulating into zero. Over the extended reals the narrowing is the identity and both forms
   are, entry by entry, the same finite sum of products, so no finiteness of the inputs is used anywhere.

   The proof follows the data: every buffer the kernel's program leaves behind is identified with the stage of the
   reference that computes the same quantity, as a function of the arguments as launched — the index vectors and edge
   weights (host operations only), the first product (its blocks assemble to the whole product), the activations, the
   second product, the scores. The frames of the two kernel programs are the generated ones; the reference's frame is
   its run with the result dropped; the idealization rewrote nothing. -/
import proofs.«418501_j1614907703893_3_alg».proof.Defs
import proofs.«418501_j1614907703893_3_alg».proof.Proof.Gen.Kernel
import proofs.«418501_j1614907703893_3_alg».proof.Proof.Gen.Kernel.Skeleton
import proofs.«418501_j1614907703893_3_alg».proof.Proof.Gen.Kernel.Launch
import proofs.«418501_j1614907703893_3_alg».proof.Proof.Gen.Kernel.Points
import proofs.«418501_j1614907703893_3_alg».proof.Proof.Gen.Kernel.Frame
import proofs.«418501_j1614907703893_3_alg».proof.Proof.Gen.KernelIdeal
import proofs.«418501_j1614907703893_3_alg».proof.Proof.Gen.KernelIdeal.Skeleton
import proofs.«418501_j1614907703893_3_alg».proof.Proof.Gen.KernelIdeal.Launch
import proofs.«418501_j1614907703893_3_alg».proof.Proof.Gen.KernelIdeal.Points
import proofs.«418501_j1614907703893_3_alg».proof.Proof.Gen.KernelIdeal.Frame
import proofs.«418501_j1614907703893_3_alg».proof.Proof.Gen.ReferenceIdeal
import proofs.«418501_j1614907703893_3_alg».proof.Proof.Gen.Pre_finite_inputs
import proofs.«418501_j1614907703893_3_alg».proof.Proof.RefRun
import proofs.«418501_j1614907703893_3_alg».proof.Proof.RefRead
import proofs.«418501_j1614907703893_3_alg».proof.Proof.KernelRun
import proofs.«418501_j1614907703893_3_alg».proof.Proof.Layers
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same scores: the kernel program's result
    buffer holds the reference's last stage of ITS arguments, the reference's run ends at that stage of its own, and
    the arguments agree. -/
theorem algebraic : Cert.algebraic_KernelIdeal_ReferenceIdeal := by
  intro m ρ m' ρ' _ hagree
  refine ⟨fun c => Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Stages.result m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v115_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
